-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768x128 : Shape := ⟨3, ![1, 768, 128]⟩
abbrev S128x128 : Shape := ⟨2, ![128, 128]⟩
abbrev S128 : Shape := ⟨1, ![128]⟩
abbrev S_ : Shape := ⟨0, ![]⟩

class Facts : Prop where
  bcast_S_S1x768x128 : S_.BroadcastsInDim S1x768x128 (![] : Fin 0 → Fin S1x768x128.rank)
  reducesTo_S1x768x128_S_d0_1_2 : S1x768x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1x768x128 .f32) (main_arg1 : FVec F S128x128 .f32) (main_arg2 : FVec F S128 .f32) (main_arg3 : FVec F S128x128 .f32) (main_arg4 : FVec F S128 .f32) : IVec S_ 1 :=
  let main_v0 : FVec F S1x768x128 .f32 := Host.absf main_arg0
  let main_cst : FVec F S_ .f32 := constant S_ .f32 0x7F800000#32
  let main_v1 : FVec F S1x768x128 .f32 := broadcastInDim S1x768x128 ![] bcast_S_S1x768x128 main_cst
  let main_v2 : IVec S1x768x128 1 := cmpf .olt main_v0 main_v1
  let main_c : IVec S_ 1 := constantI S_ 1 1#1
  let main_v3 : IVec S_ 1 := (fun x v => Host.reduce IntOp.andi x v reducesTo_S1x768x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S1x768x128 : Shape := ⟨3, ![1, 768, 128]⟩
abbrev S128x128 : Shape := ⟨2, ![128, 128]⟩
abbrev S128 : Shape := ⟨1, ![128]⟩
abbrev S768x128 : Shape := ⟨2, ![768, 128]⟩
abbrev S1x128 : Shape := ⟨2, ![1, 128]⟩
abbrev S768x768x128 : Shape := ⟨3, ![768, 768, 128]⟩
abbrev S128x128x128 : Shape := ⟨3, ![128, 128, 128]⟩
abbrev S128x1x128 : Shape := ⟨3, ![128, 1, 128]⟩
abbrev S1x128x128 : Shape := ⟨3, ![1, 128, 128]⟩
abbrev S16384x128 : Shape := ⟨2, ![16384, 128]⟩
abbrev S1x1x128 : Shape := ⟨3, ![1, 1, 128]⟩
abbrev S1x768x768x128 : Shape := ⟨4, ![1, 768, 768, 128]⟩

abbrev nBuf : Space → Nat
  | .hbm => 12
  | .vmem => 8
  | .smem => 0
  | _ => 0

abbrev bufTy : (tb : Table) → Fin (tcTables nBuf tb) → BufTy
  | .hbm, ⟨0, _⟩ => ⟨S1x768x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S768x128, .f32⟩
  | .hbm, ⟨6, _⟩ => ⟨S768x128, .f32⟩
  | .hbm, ⟨7, _⟩ => ⟨S1x128, .f32⟩
  | .hbm, ⟨8, _⟩ => ⟨S768x128, .f32⟩
  | .hbm, ⟨9, _⟩ => ⟨S768x128, .f32⟩
  | .hbm, ⟨10, _⟩ => ⟨S768x768x128, .f32⟩
  | .hbm, ⟨11, _⟩ => ⟨S1x768x768x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128, .f32⟩
  | .local _ .vmem, ⟨6, _⟩ => ⟨S128x128x128, .f32⟩
  | .local _ .vmem, ⟨7, _⟩ => ⟨S128x128x128, .f32⟩
  | _, _ => ⟨S1x768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x768x128_S768x128 : S1x768x128.ShapeCasts S768x128
  bcast_S128_S1x128_1 : S128.BroadcastsInDim S1x128 (![1] : Fin 1 → Fin S1x128.rank)
  bcast_S1x128_S768x128_0_1 : S1x128.BroadcastsInDim S768x128 (![0, 1] : Fin 2 → Fin S768x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128x128x128_S16384x128 : S128x128x128.ShapeCasts S16384x128
  bitsLt_bf16_f32 : FTy.bits .bf16 < FTy.bits .f32
  shapeCasts_S16384x128_S128x128x128 : S16384x128.ShapeCasts S128x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S128x128x128 : S1x1x128.Broadcasts S128x128x128
  inb_S128x128x128_S128x128x128_0_0_0 : ∀ a, (![0, 0, 0] : Fin 3 → Nat) a + S128x128x128.size a ≤ S128x128x128.size a
  h_S128x128x128 : 0 < S128x128x128.numel
  shapeCasts_S768x768x128_S1x768x768x128 : S768x768x128.ShapeCasts S1x768x768x128
  dot_S768x128_S128x128_S768x128_1_1_0_0_n_n_wf : DotDims.WF S768x128 S128x128 S768x128 [1] [1] [0] [0] [] []
  dot_S16384x128_S128x128_S16384x128_1_1_0_0_n_n_wf : DotDims.WF S16384x128 S128x128 S16384x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S768x128.size a
  hwx0_0 : ∀ i : grid0.Coords, EltTy.bits .f32 = 32 ∨ (Rect.block (s := S768x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S768x128.size a
  hwx0_1 : ∀ i : grid0.Coords, EltTy.bits .f32 = 32 ∨ (Rect.block (s := S768x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128x128.size a ≤ S768x768x128.size a
  hwx0_4 : ∀ i : grid0.Coords, EltTy.bits .f32 = 32 ∨ (Rect.block (s := S768x768x128) S128x128x128.size (cc0_transform_4 i) (hinb0_4 i)).WholeWords (EltTy.packing .f32)

variable [Facts₀]

def dot_S768x128_S128x128_S768x128_1_1_0_0_n_n : DotDims S768x128 S128x128 S768x128 where
  lhsContracting := [1]
  rhsContracting := [1]
  lhsNonContracting := [0]
  rhsNonContracting := [0]
  lhsBatch := []
  rhsBatch := []
  wf := dot_S768x128_S128x128_S768x128_1_1_0_0_n_n_wf
def dot_S16384x128_S128x128_S16384x128_1_1_0_0_n_n : DotDims S16384x128 S128x128 S16384x128 where
  lhsContracting := [1]
  rhsContracting := [1]
  lhsNonContracting := [0]
  rhsNonContracting := [0]
  lhsBatch := []
  rhsBatch := []
  wf := dot_S16384x128_S128x128_S16384x128_1_1_0_0_n_n_wf

abbrev win0_0 : Pipeline.Window sig grid0 :=
  Pipeline.Window.ofSpec (Memref.whole main_v4) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x768x128 : Shape := ⟨3, ![1, 768, 128]⟩
abbrev S128x128 : Shape := ⟨2, ![128, 128]⟩
abbrev S128 : Shape := ⟨1, ![128]⟩
abbrev S1x1x128 : Shape := ⟨3, ![1, 1, 128]⟩
abbrev S1x768x1x128 : Shape := ⟨4, ![1, 768, 1, 128]⟩
abbrev S1x1x768x128 : Shape := ⟨4, ![1, 1, 768, 128]⟩
abbrev S1x768x768x128 : Shape := ⟨4, ![1, 768, 768, 128]⟩
abbrev S1x1x1x128 : Shape := ⟨4, ![1, 1, 1, 128]⟩

abbrev nBuf : Space → Nat
  | .hbm => 18
  | .vmem => 0
  | .smem => 0
  | _ => 0

abbrev bufTy : (tb : Table) → Fin (tcTables nBuf tb) → BufTy
  | .hbm, ⟨0, _⟩ => ⟨S1x768x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1x768x128, .f32⟩
  | .hbm, ⟨6, _⟩ => ⟨S1x1x128, .f32⟩
  | .hbm, ⟨7, _⟩ => ⟨S1x768x128, .f32⟩
  | .hbm, ⟨8, _⟩ => ⟨S1x768x128, .f32⟩
  | .hbm, ⟨9, _⟩ => ⟨S1x768x1x128, .f32⟩
  | .hbm, ⟨10, _⟩ => ⟨S1x1x768x128, .f32⟩
  | .hbm, ⟨11, _⟩ => ⟨S1x768x768x128, .f32⟩
  | .hbm, ⟨12, _⟩ => ⟨S1x768x768x128, .f32⟩
  | .hbm, ⟨13, _⟩ => ⟨S1x768x768x128, .f32⟩
  | .hbm, ⟨14, _⟩ => ⟨S1x768x768x128, .f32⟩
  | .hbm, ⟨15, _⟩ => ⟨S1x1x1x128, .f32⟩
  | .hbm, ⟨16, _⟩ => ⟨S1x768x768x128, .f32⟩
  | .hbm, ⟨17, _⟩ => ⟨S1x768x768x128, .f32⟩
  | _, _ => ⟨S1x768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x768x128_0_1_2 : S1x1x128.BroadcastsInDim S1x768x128 (![0, 1, 2] : Fin 3 → Fin S1x768x128.rank)
  bcast_S1x768x128_S1x768x1x128_0_1_3 : S1x768x128.BroadcastsInDim S1x768x1x128 (![0, 1, 3] : Fin 3 → Fin S1x768x1x128.rank)
  bcast_S1x768x128_S1x1x768x128_0_2_3 : S1x768x128.BroadcastsInDim S1x1x768x128 (![0, 2, 3] : Fin 3 → Fin S1x1x768x128.rank)
  bcast_S1x768x1x128_S1x768x768x128_0_1_2_3 : S1x768x1x128.BroadcastsInDim S1x768x768x128 (![0, 1, 2, 3] : Fin 4 → Fin S1x768x768x128.rank)
  bcast_S1x1x768x128_S1x768x768x128_0_1_2_3 : S1x1x768x128.BroadcastsInDim S1x768x768x128 (![0, 1, 2, 3] : Fin 4 → Fin S1x768x768x128.rank)
  bcast_S128_S1x1x1x128_3 : S128.BroadcastsInDim S1x1x1x128 (![3] : Fin 1 → Fin S1x1x1x128.rank)
  bcast_S1x1x1x128_S1x768x768x128_0_1_2_3 : S1x1x1x128.BroadcastsInDim S1x768x768x128 (![0, 1, 2, 3] : Fin 4 → Fin S1x768x768x128.rank)
  dot_S1x768x128_S128x128_S1x768x128_2_1_01_0_n_n_wf : DotDims.WF S1x768x128 S128x128 S1x768x128 [2] [1] [0, 1] [0] [] []
  dot_S1x768x768x128_S128x128_S1x768x768x128_3_1_012_0_n_n_wf : DotDims.WF S1x768x768x128 S128x128 S1x768x768x128 [3] [1] [0, 1, 2] [0] [] []

variable [Facts₀]

def dot_S1x768x128_S128x128_S1x768x128_2_1_01_0_n_n : DotDims S1x768x128 S128x128 S1x768x128 where
  lhsContracting := [2]
  rhsContracting := [1]
  lhsNonContracting := [0, 1]
  rhsNonContracting := [0]
  lhsBatch := []
  rhsBatch := []
  wf := dot_S1x768x128_S128x128_S1x768x128_2_1_01_0_n_n_wf
def dot_S1x768x768x128_S128x128_S1x768x768x128_3_1_012_0_n_n : DotDims S1x768x768x128 S128x128 S1x768x768x128 where
  lhsContracting := [3]
  rhsContracting := [1]
  lhsNonContracting := [0, 1, 2]
  rhsNonContracting := [0]
  lhsBatch := []
  rhsBatch := []
  wf := dot_S1x768x768x128_S128x128_S1x768x768x128_3_1_012_0_n_n_wf

class Facts : Prop extends Facts₀ where

variable [Facts]
-- ==== Proof.BitsDat.lean ====
/-
  The proof data of the one kernel region, at any float instance `F`, over the buffer contents `V` the region
  is entered with.

  The region has five windows. Windows 0 and 1 both read the 768 × 128 array `left` (one by the row block of the
  grid's first coordinate, the other by that of the second), windows 2 and 3 read the whole 128 × 128 weight and
  the 128-vector bias, and window 4 writes the 128 × 128 × 128 block (i, j, ·) of the result. The body computes
  one value from the four input blocks and stores it over the whole output block; so after the body each input's
  buffer holds its block and the output's holds that value. The two windows on `left` hold the array at the two
  halves of the full share.
-/
import proofs.«169702_j46505905881344_1_alg».proof.Proof.Gen.Kernel.Launch
import proofs.«169702_j46505905881344_1_alg».proof.Proof.Gen.Kernel.Skeleton
import proofs.«169702_j46505905881344_1_alg».proof.Proof.Gen.Kernel.Points
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 128 × 128 block, the whole 128-vector and the whole 128 × 128 × 128 block as rectangles. -/
abbrev rMat : Rect S128x128 := Rect.unit (s := S128x128) ![0, 0] S128x128.size inb_S128x128_S128x128_0_0
abbrev rVec : Rect S128 := Rect.unit (s := S128) ![0] S128.size inb_S128_S128_0
abbrev rOut : Rect S128x128x128 := Rect.unit (s := S128x128x128) ![0, 0, 0] S128x128x128.size inb_S128x128x128_S128x128x128_0_0_0

/-- What the body leaves in the output block's buffer, from the four input blocks: its one store, of the body's one
    computed value, over the whole block. -/
def out0_4 (x0 x1 x2 : Vec F S128x128 .f32) (x3 : Vec F S128 .f32) : Vec F S128x128x128 .f32 :=
  View.canon [⟨rOut, k0_pay1 (View.ld x0 rMat) (View.ld x1 rMat) (View.ld x2 rMat) (View.ld x3 rVec)⟩]

/-- The proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- The shares: the two windows on `left` split its full share, every other window holds its array outright. -/
theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl
theorem share0_4 (c : Dev nD) : (dat0 V c).share 4 = fullShare := rfl

end Cert.Kernel.Hand

end
-- ==== Proof.BitsBody.lean ====
/-
  The kernel body's obligation at every grid point, at any float instance, over the buffer contents `V` the region
  is entered with.

  The body reads its four input blocks whole, computes one value of them (`k0_pay1`) and stores it over the whole
  output block; the one store covers the block, so the output's buffer reads back as that value whatever it held
  before (the body also reads the output's old contents, and uses them nowhere). Each input's staging buffer holds
  its block at every point, fetched there or not: an unfetched window's block index has not moved since the point
  before. With the invariant and the core's debts passing through untouched, that is the pipeline's obligation.
-/
import proofs.«169702_j46505905881344_1_alg».proof.Proof.BitsDat
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The one store covers the output block -/

/-- The body's one store is over the whole 128 × 128 × 128 block, so every index of the block lies in it. -/
theorem cover_out0_4 (p : Vec F S128x128x128 .f32) (y : S128x128x128.Idx) :
    ∃ pc ∈ ([⟨rOut, p⟩] : List (View.Piece (Elt F) S128x128x128 .f32)), y ∈ pc.1.set :=
  View.cover_of_tiled [⟨rOut, p⟩] S128x128x128.size (by rfl) y

/-! ## The body's triple -/

set_option maxHeartbeats 1000000 in
/-- The kernel body on whole staging memrefs, the four inputs' at read contents `x0 … x3` and the output's at anything,
    runs to the continuation holding the inputs' as they were and the output's at `out0_4 x0 x1 x2 x3`: four whole
    loads, a load of the output's old contents that nothing uses, and the one store over the whole block. -/
theorem sound_kernel0 (c : Dev nD) (E : Set ℕ) (i : grid0.Coords)
    (arg2 : Memref sig .tc .vmem S128x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S128x128x128 .f32) (harg6 : arg6.IsWhole)
    (x0 x1 x2 : Vec F S128x128 .f32) (x3 : Vec F S128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1 x2 x3)) -∗ K ⟨⟩))
      ⊢ wp frame (wpE (defs₀ (F := F)) Variants.none c none) E
          (cc0__outer_proj_kernel i arg2 harg2 arg3 harg3 arg4 harg4 arg5 harg5 arg6 harg6) K := by
  simp only [cc0__outer_proj_kernel_eq_skeleton]; unfold cc0__outer_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out0_4 _)

/-! ## What each input's staging buffer holds when the body is called -/

/-- Window 0 (the row block of the grid's first coordinate, fetched only when that coordinate moves) holds its block
    at every point: unfetched, its block index is the one of the point before, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Window 1 (the row block of the grid's second coordinate, fetched at every point) holds its block. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Window 2 (the whole weight, fetched at the first point only) holds it at every point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Window 3 (the whole bias, fetched at the first point only) holds it at every point. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body obligation, at a generic point -/

/-- What the body is called with at point `t`: the invariant, the core's debts, and the five windows' current
    staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsShare.lean ====
/-
  The arrays of the kernel region when two of its windows read ONE array.

  Four buffers stand behind the five windows' arrays: `left` (windows 0 and 1), the weight, the bias and the
  result. Held whole at the full share they are the region's arrays at the same contents: `left`'s full share is
  the sum of its two halves, one per window on it, and each other window holds its buffer outright. The
  entailment goes both ways: one way at the region's entry, the other at its exit, where the two halves, both
  still at the entry contents, are put together again.
-/
import proofs.«169702_j46505905881344_1_alg».proof.Proof.BitsDat
import Idealize.ShloMosaic.Lib.Pipeline.Kit
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (V₀ : (c : Dev nD) → (b : Ref sig .tc) → Buf (Elt F) ((c : Thread nD τ).loc b))

/-- One window's array, a whole buffer, at its share. -/
theorem arr_pt (c : Dev nD) (V : (b : Ref sig .tc) → Buf (Elt F) ((c : Thread nD τ).loc b)) (w : Fin cfg0.W) :
    ((cfg0.win w).arr.view.loc (c : Thread nD τ) ↦[(cfg0.win w).arr.view.set]{(dat0 V₀ c).share w} V (Pipeline.arrRef spec0 w) : sProp 𝕄)
      = (((c : Thread nD τ).loc (Pipeline.arrRef spec0 w)) ↦{(dat0 V₀ c).share w} V (Pipeline.arrRef spec0 w)) := by
  rw [(arr_whole0 w).set_eq_univ]

/-- The four buffers behind the arrays, one by one. -/
theorem arrBufs0_eq (c : Dev nD) (V : (b : Ref sig .tc) → Buf (Elt F) ((c : Thread nD τ).loc b)) :
    (Pipeline.arrBufs spec0 c V : sProp 𝕄)
      = iprop((((c : Thread nD τ).loc main_v4) ↦{fullShare} V main_v4) ∗ (((c : Thread nD τ).loc main_arg3) ↦{fullShare} V main_arg3)
          ∗ (((c : Thread nD τ).loc main_arg4) ↦{fullShare} V main_arg4) ∗ (((c : Thread nD τ).loc main_v5) ↦{fullShare} V main_v5)) := by
  unfold Pipeline.arrBufs
  exact bigSep_eq_bigSepL_of_eq [main_v4, main_arg3, main_arg4, main_v5] (by decide) (by decide) _

/-- The five windows' arrays at `V`, one by one: the two windows on `left` at the two halves of its full share. -/
theorem arrays0_eq (c : Dev nD) (V : (b : Ref sig .tc) → Buf (Elt F) ((c : Thread nD τ).loc b)) :
    ((dat0 V₀ c).arrays (fun w => V (Pipeline.arrRef spec0 w)) : sProp 𝕄)
      = iprop((((c : Thread nD τ).loc main_v4) ↦{fullShare.left} V main_v4) ∗ (((c : Thread nD τ).loc main_v4) ↦{fullShare.right} V main_v4)
          ∗ (((c : Thread nD τ).loc main_arg3) ↦{fullShare} V main_arg3)
          ∗ (((c : Thread nD τ).loc main_arg4) ↦{fullShare} V main_arg4) ∗ (((c : Thread nD τ).loc main_v5) ↦{fullShare} V main_v5)) := by
  unfold Pipeline.Dat.arrays
  rw [bigSep_congr (fun w _ => arr_pt V₀ c V w), bigSep_W0]
  rfl

/-- The four buffers behind the arrays, whole at the full share at `V`, are the region's arrays at `V`. -/
theorem arrays_of_bufs (c : Dev nD) (V : (b : Ref sig .tc) → Buf (Elt F) ((c : Thread nD τ).loc b)) :
    (Pipeline.arrBufs spec0 c V : sProp 𝕄) ⊢ (dat0 V₀ c).arrays (fun w => V (Pipeline.arrRef spec0 w)) := by
  rw [arrBufs0_eq, arrays0_eq]
  iintro ⟨Hl, Hw, Hb, Ho⟩
  ihave H := (pointsTo_share (PosShare.mem_left_op_right fullShare)).1 $$ Hl
  icases H with ⟨H0, H1⟩
  isplitl [H0]; · iexact H0
  isplitl [H1]; · iexact H1
  isplitl [Hw]; · iexact Hw
  isplitl [Hb]; · iexact Hb
  iexact Ho

/-- And back. -/
theorem bufs_of_arrays (c : Dev nD) (V : (b : Ref sig .tc) → Buf (Elt F) ((c : Thread nD τ).loc b)) :
    (dat0 V₀ c).arrays (fun w => V (Pipeline.arrRef spec0 w)) ⊢ (Pipeline.arrBufs spec0 c V : sProp 𝕄) := by
  rw [arrBufs0_eq, arrays0_eq]
  iintro ⟨H0, H1, Hw, Hb, Ho⟩
  isplitl [H0 H1]
  · iapply (pointsTo_share (PosShare.mem_left_op_right fullShare)).2
    isplitl [H0]; · iexact H0
    iexact H1
  isplitl [Hw]; · iexact Hw
  isplitl [Hb]; · iexact Hb
  iexact Ho

variable (V : (c : Dev nD) → (b : Ref sig .tc) → Buf (Elt F) ((c : Thread nD τ).loc b))

/-- ENTRY: a core's unscoped buffers at `V` are the region's arrays at their entry contents and the buffers no window
    stages. -/
theorem entry_arrays (c : Dev nD) :
    (unscopedBufs c (V c) : sProp 𝕄) ⊢ iprop((dat0 V c).arrays (fun w => (dat0 V c).arrAt w 0) ∗ Pipeline.unscopedRest spec0 c (V c)) := by
  rw [Pipeline.unscopedBufs_split₀ cfgs 0 winFacts₀0.arr_unscoped c (V c)]
  exact sep_mono (arrays_of_bufs V c (V c)) .rfl

/-- EXIT: the region's arrays at contents `Fa` and the buffers no window stages at `V` are the core's unscoped
    buffers at any contents `V'` that has the arrays at `Fa` and agrees with `V` off them. -/
theorem exit_bufs (c : Dev nD) (V' : (b : Ref sig .tc) → Buf (Elt F) ((c : Thread nD τ).loc b))
    (Fa : (w : Fin cfg0.W) → Buf (Elt F) ((cfg0.win w).arr.view.loc (c : Thread nD τ)))
    (hF : ∀ w, Fa w = V' (Pipeline.arrRef spec0 w))
    (hrest : ∀ b, b ∉ Finset.univ.image (Pipeline.arrRef spec0) → V' b = V c b) :
    iprop((dat0 V c).arrays Fa ∗ Pipeline.unscopedRest spec0 c (V c)) ⊢ (unscopedBufs c V' : sProp 𝕄) := by
  rw [Pipeline.unscopedBufs_split₀ cfgs 0 winFacts₀0.arr_unscoped c V']
  refine sep_mono ?_ (Entails.of_eq ?_)
  · rw [show Fa = fun w => V' (Pipeline.arrRef spec0 w) from funext hF]
    exact bufs_of_arrays V c V'
  · unfold Pipeline.unscopedRest
    exact bigSep_congr fun b hb => by rw [hrest b (Finset.mem_sdiff.mp hb).2]

end Cert.Kernel.Hand

end
-- ==== Proof.BitsRun.lean ====
/-
  The run of @main at any float instance: five host operations compute `left` from the arguments, the kernel
  region writes the 768 × 768 × 128 result block by block, one host operation gives it its leading unit axis.

  The buffer contents at each boundary: the launch memory; after the first host stretch; after the region, where
  only the result's buffer has changed, to what the 36 write-backs leave; after the last host stretch. Every
  weakly fair execution terminates, and every final memory holds every unscoped buffer at the last of these.
  The region's two windows on `left` are dealt its two half shares on entry and give them back on exit.
-/
import proofs.«169702_j46505905881344_1_alg».proof.Proof.BitsBody
import proofs.«169702_j46505905881344_1_alg».proof.Proof.BitsShare
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- What the region's write-backs leave in the result's buffer. -/
abbrev outArr (c : Dev nD) : Buf (Elt F) ((c : Thread nD τ).loc main_v5) := (dat0 (V1 m ρ) c).arrAt 4 cfg0.N
/-- At the region's exit: the result's buffer at what the write-backs leave, every other buffer as entered. -/
def W2 (c : Dev nD) : Valuation τ sig (Elt F) := Function.update (W1 m ρ c) (Proc.devRef .tc main_v5) (outArr m ρ c)
abbrev V2 : (c : Dev nD) → (b : Ref sig .tc) → Buf (Elt F) ((c : Thread nD τ).loc b) := fun c b => W2 m ρ c b
/-- After the last host stretch: the end. -/
abbrev W3 : Dev nD → Valuation τ sig (Elt F) := fun c => StableHlo.after hostOps1 (W2 m ρ c)

theorem W2_out (c : Dev nD) : W2 m ρ c (Proc.devRef .tc main_v5) = outArr m ρ c := by
  unfold W2; exact Function.update_self ..
theorem W2_of_ne (c : Dev nD) (b : Ref sig .tc) (hb : b ≠ main_v5) : W2 m ρ c (Proc.devRef .tc b) = W1 m ρ c (Proc.devRef .tc b) := by
  unfold W2; exact Function.update_of_ne (StableHlo.devRef_ne_of_ne hb) ..

/-- At the region's exit every array holds what the pipeline leaves: an input its entry contents, the result the
    write-backs'. -/
theorem hF0 (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans ((A_eq0 (V1 m ρ) c 0).trans (W2_of_ne m ρ c main_v4 (by decide)).symm)
  | ⟨1, _⟩ => exact ((dat0 (V1 m ρ) c).arrAt_in 1 rfl _).trans ((A_eq0 (V1 m ρ) c 1).trans (W2_of_ne m ρ c main_v4 (by decide)).symm)
  | ⟨2, _⟩ => exact ((dat0 (V1 m ρ) c).arrAt_in 2 rfl _).trans ((A_eq0 (V1 m ρ) c 2).trans (W2_of_ne m ρ c main_arg3 (by decide)).symm)
  | ⟨3, _⟩ => exact ((dat0 (V1 m ρ) c).arrAt_in 3 rfl _).trans ((A_eq0 (V1 m ρ) c 3).trans (W2_of_ne m ρ c main_arg4 (by decide)).symm)
  | ⟨4, _⟩ => exact (W2_out m ρ c).symm
/-- And every buffer that is no array what it held at entry. -/
theorem hrest0 (c : Dev nD) : ∀ b, b ∉ Finset.univ.image (Pipeline.arrRef spec0) → V2 m ρ c b = V1 m ρ c b :=
  fun b hb => W2_of_ne m ρ c b fun e => hb (Finset.mem_image.mpr ⟨4, Finset.mem_univ _, e.symm⟩)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_arrays (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_bufs (V1 m ρ) c (V2 m ρ c) ((dat0 (V1 m ρ) c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.BitsEnd.lean ====
/-
  The arguments at the end of the run, and the frame.

  No host operation writes an argument's buffer and the region changes only the result's, so the contents of each
  argument's buffer at the last boundary walk back, boundary by boundary, to the launch memory.
-/
import proofs.«169702_j46505905881344_1_alg».proof.Proof.BitsRun

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- THE FRAME at any float instance: every weakly fair execution of @main terminates, nothing faulting, and the five
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_main m ρ)

end Cert.Kernel.Hand

end
-- ==== Proof.IdealDat.lean ====
/-
  The proof data of the one kernel region, at any float instance `F`, over the buffer contents `V` the region
  is entered with.

  The region has five windows. Windows 0 and 1 both read the 768 × 128 array `left` (one by the row block of the
  grid's first coordinate, the other by that of the second), windows 2 and 3 read the whole 128 × 128 weight and
  the 128-vector bias, and window 4 writes the 128 × 128 × 128 block (i, j, ·) of the result. The body computes
  one value from the four input blocks and stores it over the whole output block; so after the body each input's
  buffer holds its block and the output's holds that value. The two windows on `left` hold the array at the two
  halves of the full share.
-/
import proofs.«169702_j46505905881344_1_alg».proof.Proof.Gen.KernelIdeal.Launch
import proofs.«169702_j46505905881344_1_alg».proof.Proof.Gen.KernelIdeal.Skeleton
import proofs.«169702_j46505905881344_1_alg».proof.Proof.Gen.KernelIdeal.Points
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 128 × 128 block, the whole 128-vector and the whole 128 × 128 × 128 block as rectangles. -/
abbrev rMat : Rect S128x128 := Rect.unit (s := S128x128) ![0, 0] S128x128.size inb_S128x128_S128x128_0_0
abbrev rVec : Rect S128 := Rect.unit (s := S128) ![0] S128.size inb_S128_S128_0
abbrev rOut : Rect S128x128x128 := Rect.unit (s := S128x128x128) ![0, 0, 0] S128x128x128.size inb_S128x128x128_S128x128x128_0_0_0

/-- What the body leaves in the output block's buffer, from the four input blocks: its one store, of the body's one
    computed value, over the whole block. -/
def out0_4 (x0 x1 x2 : Vec F S128x128 .f32) (x3 : Vec F S128 .f32) : Vec F S128x128x128 .f32 :=
  View.canon [⟨rOut, k0_pay1 (View.ld x0 rMat) (View.ld x1 rMat) (View.ld x2 rMat) (View.ld x3 rVec)⟩]

/-- The proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- The shares: the two windows on `left` split its full share, every other window holds its array outright. -/
theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl
theorem share0_4 (c : Dev nD) : (dat0 V c).share 4 = fullShare := rfl

end Cert.KernelIdeal.Hand

end
-- ==== Proof.IdealBody.lean ====
/-
  The kernel body's obligation at every grid point, at any float instance, over the buffer contents `V` the region
  is entered with.

  The body reads its four input blocks whole, computes one value of them (`k0_pay1`) and stores it over the whole
  output block; the one store covers the block, so the output's buffer reads back as that value whatever it held
  before (the body also reads the output's old contents, and uses them nowhere). Each input's staging buffer holds
  its block at every point, fetched there or not: an unfetched window's block index has not moved since the point
  before. With the invariant and the core's debts passing through untouched, that is the pipeline's obligation.
-/
import proofs.«169702_j46505905881344_1_alg».proof.Proof.IdealDat
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The one store covers the output block -/

/-- The body's one store is over the whole 128 × 128 × 128 block, so every index of the block lies in it. -/
theorem cover_out0_4 (p : Vec F S128x128x128 .f32) (y : S128x128x128.Idx) :
    ∃ pc ∈ ([⟨rOut, p⟩] : List (View.Piece (Elt F) S128x128x128 .f32)), y ∈ pc.1.set :=
  View.cover_of_tiled [⟨rOut, p⟩] S128x128x128.size (by rfl) y

/-! ## The body's triple -/

set_option maxHeartbeats 1000000 in
/-- The kernel body on whole staging memrefs, the four inputs' at read contents `x0 … x3` and the output's at anything,
    runs to the continuation holding the inputs' as they were and the output's at `out0_4 x0 x1 x2 x3`: four whole
    loads, a load of the output's old contents that nothing uses, and the one store over the whole block. -/
theorem sound_kernel0 (c : Dev nD) (E : Set ℕ) (i : grid0.Coords)
    (arg2 : Memref sig .tc .vmem S128x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S128x128x128 .f32) (harg6 : arg6.IsWhole)
    (x0 x1 x2 : Vec F S128x128 .f32) (x3 : Vec F S128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1 x2 x3)) -∗ K ⟨⟩))
      ⊢ wp frame (wpE (defs₀ (F := F)) Variants.none c none) E
          (cc0__outer_proj_kernel i arg2 harg2 arg3 harg3 arg4 harg4 arg5 harg5 arg6 harg6) K := by
  simp only [cc0__outer_proj_kernel_eq_skeleton]; unfold cc0__outer_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out0_4 _)

/-! ## What each input's staging buffer holds when the body is called -/

/-- Window 0 (the row block of the grid's first coordinate, fetched only when that coordinate moves) holds its block
    at every point: unfetched, its block index is the one of the point before, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Window 1 (the row block of the grid's second coordinate, fetched at every point) holds its block. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Window 2 (the whole weight, fetched at the first point only) holds it at every point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Window 3 (the whole bias, fetched at the first point only) holds it at every point. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body obligation, at a generic point -/

/-- What the body is called with at point `t`: the invariant, the core's debts, and the five windows' current
    staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealShare.lean ====
/-
  The arrays of the kernel region when two of its windows read ONE array.

  Four buffers stand behind the five windows' arrays: `left` (windows 0 and 1), the weight, the bias and the
  result. Held whole at the full share they are the region's arrays at the same contents: `left`'s full share is
  the sum of its two halves, one per window on it, and each other window holds its buffer outright. The
  entailment goes both ways: one way at the region's entry, the other at its exit, where the two halves, both
  still at the entry contents, are put together again.
-/
import proofs.«169702_j46505905881344_1_alg».proof.Proof.IdealDat
import Idealize.ShloMosaic.Lib.Pipeline.Kit
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (V₀ : (c : Dev nD) → (b : Ref sig .tc) → Buf (Elt F) ((c : Thread nD τ).loc b))

/-- One window's array, a whole buffer, at its share. -/
theorem arr_pt (c : Dev nD) (V : (b : Ref sig .tc) → Buf (Elt F) ((c : Thread nD τ).loc b)) (w : Fin cfg0.W) :
    ((cfg0.win w).arr.view.loc (c : Thread nD τ) ↦[(cfg0.win w).arr.view.set]{(dat0 V₀ c).share w} V (Pipeline.arrRef spec0 w) : sProp 𝕄)
      = (((c : Thread nD τ).loc (Pipeline.arrRef spec0 w)) ↦{(dat0 V₀ c).share w} V (Pipeline.arrRef spec0 w)) := by
  rw [(arr_whole0 w).set_eq_univ]

/-- The four buffers behind the arrays, one by one. -/
theorem arrBufs0_eq (c : Dev nD) (V : (b : Ref sig .tc) → Buf (Elt F) ((c : Thread nD τ).loc b)) :
    (Pipeline.arrBufs spec0 c V : sProp 𝕄)
      = iprop((((c : Thread nD τ).loc main_v4) ↦{fullShare} V main_v4) ∗ (((c : Thread nD τ).loc main_arg3) ↦{fullShare} V main_arg3)
          ∗ (((c : Thread nD τ).loc main_arg4) ↦{fullShare} V main_arg4) ∗ (((c : Thread nD τ).loc main_v5) ↦{fullShare} V main_v5)) := by
  unfold Pipeline.arrBufs
  exact bigSep_eq_bigSepL_of_eq [main_v4, main_arg3, main_arg4, main_v5] (by decide) (by decide) _

/-- The five windows' arrays at `V`, one by one: the two windows on `left` at the two halves of its full share. -/
theorem arrays0_eq (c : Dev nD) (V : (b : Ref sig .tc) → Buf (Elt F) ((c : Thread nD τ).loc b)) :
    ((dat0 V₀ c).arrays (fun w => V (Pipeline.arrRef spec0 w)) : sProp 𝕄)
      = iprop((((c : Thread nD τ).loc main_v4) ↦{fullShare.left} V main_v4) ∗ (((c : Thread nD τ).loc main_v4) ↦{fullShare.right} V main_v4)
          ∗ (((c : Thread nD τ).loc main_arg3) ↦{fullShare} V main_arg3)
          ∗ (((c : Thread nD τ).loc main_arg4) ↦{fullShare} V main_arg4) ∗ (((c : Thread nD τ).loc main_v5) ↦{fullShare} V main_v5)) := by
  unfold Pipeline.Dat.arrays
  rw [bigSep_congr (fun w _ => arr_pt V₀ c V w), bigSep_W0]
  rfl

/-- The four buffers behind the arrays, whole at the full share at `V`, are the region's arrays at `V`. -/
theorem arrays_of_bufs (c : Dev nD) (V : (b : Ref sig .tc) → Buf (Elt F) ((c : Thread nD τ).loc b)) :
    (Pipeline.arrBufs spec0 c V : sProp 𝕄) ⊢ (dat0 V₀ c).arrays (fun w => V (Pipeline.arrRef spec0 w)) := by
  rw [arrBufs0_eq, arrays0_eq]
  iintro ⟨Hl, Hw, Hb, Ho⟩
  ihave H := (pointsTo_share (PosShare.mem_left_op_right fullShare)).1 $$ Hl
  icases H with ⟨H0, H1⟩
  isplitl [H0]; · iexact H0
  isplitl [H1]; · iexact H1
  isplitl [Hw]; · iexact Hw
  isplitl [Hb]; · iexact Hb
  iexact Ho

/-- And back. -/
theorem bufs_of_arrays (c : Dev nD) (V : (b : Ref sig .tc) → Buf (Elt F) ((c : Thread nD τ).loc b)) :
    (dat0 V₀ c).arrays (fun w => V (Pipeline.arrRef spec0 w)) ⊢ (Pipeline.arrBufs spec0 c V : sProp 𝕄) := by
  rw [arrBufs0_eq, arrays0_eq]
  iintro ⟨H0, H1, Hw, Hb, Ho⟩
  isplitl [H0 H1]
  · iapply (pointsTo_share (PosShare.mem_left_op_right fullShare)).2
    isplitl [H0]; · iexact H0
    iexact H1
  isplitl [Hw]; · iexact Hw
  isplitl [Hb]; · iexact Hb
  iexact Ho

variable (V : (c : Dev nD) → (b : Ref sig .tc) → Buf (Elt F) ((c : Thread nD τ).loc b))

/-- ENTRY: a core's unscoped buffers at `V` are the region's arrays at their entry contents and the buffers no window
    stages. -/
theorem entry_arrays (c : Dev nD) :
    (unscopedBufs c (V c) : sProp 𝕄) ⊢ iprop((dat0 V c).arrays (fun w => (dat0 V c).arrAt w 0) ∗ Pipeline.unscopedRest spec0 c (V c)) := by
  rw [Pipeline.unscopedBufs_split₀ cfgs 0 winFacts₀0.arr_unscoped c (V c)]
  exact sep_mono (arrays_of_bufs V c (V c)) .rfl

/-- EXIT: the region's arrays at contents `Fa` and the buffers no window stages at `V` are the core's unscoped
    buffers at any contents `V'` that has the arrays at `Fa` and agrees with `V` off them. -/
theorem exit_bufs (c : Dev nD) (V' : (b : Ref sig .tc) → Buf (Elt F) ((c : Thread nD τ).loc b))
    (Fa : (w : Fin cfg0.W) → Buf (Elt F) ((cfg0.win w).arr.view.loc (c : Thread nD τ)))
    (hF : ∀ w, Fa w = V' (Pipeline.arrRef spec0 w))
    (hrest : ∀ b, b ∉ Finset.univ.image (Pipeline.arrRef spec0) → V' b = V c b) :
    iprop((dat0 V c).arrays Fa ∗ Pipeline.unscopedRest spec0 c (V c)) ⊢ (unscopedBufs c V' : sProp 𝕄) := by
  rw [Pipeline.unscopedBufs_split₀ cfgs 0 winFacts₀0.arr_unscoped c V']
  refine sep_mono ?_ (Entails.of_eq ?_)
  · rw [show Fa = fun w => V' (Pipeline.arrRef spec0 w) from funext hF]
    exact bufs_of_arrays V c V'
  · unfold Pipeline.unscopedRest
    exact bigSep_congr fun b hb => by rw [hrest b (Finset.mem_sdiff.mp hb).2]

end Cert.KernelIdeal.Hand

end
-- ==== Proof.IdealRun.lean ====
/-
  The run of @main at any float instance: five host operations compute `left` from the arguments, the kernel
  region writes the 768 × 768 × 128 result block by block, one host operation gives it its leading unit axis.

  The buffer contents at each boundary: the launch memory; after the first host stretch; after the region, where
  only the result's buffer has changed, to what the 36 write-backs leave; after the last host stretch. Every
  weakly fair execution terminates, and every final memory holds every unscoped buffer at the last of these.
  The region's two windows on `left` are dealt its two half shares on entry and give them back on exit.
-/
import proofs.«169702_j46505905881344_1_alg».proof.Proof.IdealBody
import proofs.«169702_j46505905881344_1_alg».proof.Proof.IdealShare
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- What the region's write-backs leave in the result's buffer. -/
abbrev outArr (c : Dev nD) : Buf (Elt F) ((c : Thread nD τ).loc main_v5) := (dat0 (V1 m ρ) c).arrAt 4 cfg0.N
/-- At the region's exit: the result's buffer at what the write-backs leave, every other buffer as entered. -/
def W2 (c : Dev nD) : Valuation τ sig (Elt F) := Function.update (W1 m ρ c) (Proc.devRef .tc main_v5) (outArr m ρ c)
abbrev V2 : (c : Dev nD) → (b : Ref sig .tc) → Buf (Elt F) ((c : Thread nD τ).loc b) := fun c b => W2 m ρ c b
/-- After the last host stretch: the end. -/
abbrev W3 : Dev nD → Valuation τ sig (Elt F) := fun c => StableHlo.after hostOps1 (W2 m ρ c)

theorem W2_out (c : Dev nD) : W2 m ρ c (Proc.devRef .tc main_v5) = outArr m ρ c := by
  unfold W2; exact Function.update_self ..
theorem W2_of_ne (c : Dev nD) (b : Ref sig .tc) (hb : b ≠ main_v5) : W2 m ρ c (Proc.devRef .tc b) = W1 m ρ c (Proc.devRef .tc b) := by
  unfold W2; exact Function.update_of_ne (StableHlo.devRef_ne_of_ne hb) ..

/-- At the region's exit every array holds what the pipeline leaves: an input its entry contents, the result the
    write-backs'. -/
theorem hF0 (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans ((A_eq0 (V1 m ρ) c 0).trans (W2_of_ne m ρ c main_v4 (by decide)).symm)
  | ⟨1, _⟩ => exact ((dat0 (V1 m ρ) c).arrAt_in 1 rfl _).trans ((A_eq0 (V1 m ρ) c 1).trans (W2_of_ne m ρ c main_v4 (by decide)).symm)
  | ⟨2, _⟩ => exact ((dat0 (V1 m ρ) c).arrAt_in 2 rfl _).trans ((A_eq0 (V1 m ρ) c 2).trans (W2_of_ne m ρ c main_arg3 (by decide)).symm)
  | ⟨3, _⟩ => exact ((dat0 (V1 m ρ) c).arrAt_in 3 rfl _).trans ((A_eq0 (V1 m ρ) c 3).trans (W2_of_ne m ρ c main_arg4 (by decide)).symm)
  | ⟨4, _⟩ => exact (W2_out m ρ c).symm
/-- And every buffer that is no array what it held at entry. -/
theorem hrest0 (c : Dev nD) : ∀ b, b ∉ Finset.univ.image (Pipeline.arrRef spec0) → V2 m ρ c b = V1 m ρ c b :=
  fun b hb => W2_of_ne m ρ c b fun e => hb (Finset.mem_image.mpr ⟨4, Finset.mem_univ _, e.symm⟩)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_arrays (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_bufs (V1 m ρ) c (V2 m ρ c) ((dat0 (V1 m ρ) c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.IdealEnd.lean ====
/-
  The arguments at the end of the run, and the frame.

  No host operation writes an argument's buffer and the region changes only the result's, so the contents of each
  argument's buffer at the last boundary walk back, boundary by boundary, to the launch memory.
-/
import proofs.«169702_j46505905881344_1_alg».proof.Proof.IdealRun

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- THE FRAME at any float instance: every weakly fair execution of @main terminates, nothing faulting, and the five
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_main m ρ)

end Cert.KernelIdeal.Hand

end
-- ==== Proof.Payload.lean ====
/-
  The kernel body's one stored value, read at an index, at the ideal values.

  The body forms the feature-wise product of row p of its first block with row q of its second
  (a 128 × 128 × 128 array, flattened to a 16384 × 128 matrix whose row 128·p + q holds that product),
  contracts it against the rows of the weight block, folds the rows back, and adds the bias along the
  last axis. Every step is read at an index, so the value at (p, q, e) is
      (∑_d (a[p, d] · b[q, d]) · w[e, d]) + c[e].
-/
import proofs.«169702_j46505905881344_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen
open Idealize.ShloMosaic Idealize.ShloMosaic.ValueIdx

variable {α : Type}

/-! ## The layout operations at an index -/

/-- A 128 × 128 array cast to 128 × 1 × 128 reads, at (p, u, d), the operand at (p, d). -/
theorem cast_mid_apply (x : S128x128.Idx → α) (h : S128x128.ShapeCasts S128x1x128) (p : Fin 128) (u : Fin 1) (d : Fin 128) :
    shapeCast S128x1x128 x h (ix3 p u d) = x (ix2 p d) :=
  shapeCast_apply x h _ _ (by
    have hu : u.val = 0 := by omega
    rw [Shape.rowMajor_val_three, Shape.rowMajor_val_two]
    show p.val * 128 + d.val = (p.val * 1 + u.val) * 128 + d.val
    omega)

/-- A 128 × 1 × 128 array broadcast along its middle axis reads, at (p, q, d), the operand at (p, 0, d). -/
theorem bcast_mid_apply (x : S128x1x128.Idx → α) (h : S128x1x128.Broadcasts S128x128x128) (p q d : Fin 128) :
    broadcastTo S128x128x128 x h (ix3 p q d) = x (ix3 p (0 : Fin 1) d) := by
  refine broadcastTo_apply x h (ix3 p q d) (ix3 p (0 : Fin 1) d) fun ax => ?_
  match ax with
  | ⟨0, _⟩ => show p.val = if (128 : Nat) = 1 then 0 else p.val; rw [if_neg (by decide)]
  | ⟨1, _⟩ => rfl
  | ⟨2, _⟩ => show d.val = if (128 : Nat) = 1 then 0 else d.val; rw [if_neg (by decide)]

/-- A 1 × 128 × 128 array broadcast along its leading axis reads, at (p, q, d), the operand at (0, q, d). -/
theorem bcast_lead_apply (x : S1x128x128.Idx → α) (h : S1x128x128.Broadcasts S128x128x128) (p q d : Fin 128) :
    broadcastTo S128x128x128 x h (ix3 p q d) = x (ix3 (0 : Fin 1) q d) := by
  refine broadcastTo_apply x h (ix3 p q d) (ix3 (0 : Fin 1) q d) fun ax => ?_
  match ax with
  | ⟨0, _⟩ => rfl
  | ⟨1, _⟩ => show q.val = if (128 : Nat) = 1 then 0 else q.val; rw [if_neg (by decide)]
  | ⟨2, _⟩ => show d.val = if (128 : Nat) = 1 then 0 else d.val; rw [if_neg (by decide)]

/-- Row 128·p + q of the 16384-row matrix. -/
def row (p q : Fin 128) : Fin 16384 := ⟨128 * p.val + q.val, by omega⟩

/-- A 128 × 128 × 128 array flattened to 16384 × 128 reads, at (128·p + q, d), the operand at (p, q, d). -/
theorem flatten_apply (x : S128x128x128.Idx → α) (h : S128x128x128.ShapeCasts S16384x128) (p q d : Fin 128) :
    shapeCast S16384x128 x h (ix2 (row p q) d) = x (ix3 p q d) :=
  shapeCast_apply x h _ _ (by
    rw [Shape.rowMajor_val_three, Shape.rowMajor_val_two]
    show (p.val * 128 + q.val) * 128 + d.val = (128 * p.val + q.val) * 128 + d.val
    omega)

/-- A 16384 × 128 matrix folded back to 128 × 128 × 128 reads, at (p, q, e), the operand at (128·p + q, e). -/
theorem fold_apply (y : S16384x128.Idx → α) (h : S16384x128.ShapeCasts S128x128x128) (p q e : Fin 128) :
    shapeCast S128x128x128 y h (ix3 p q e) = y (ix2 (row p q) e) :=
  shapeCast_apply y h _ _ (by
    rw [Shape.rowMajor_val_three, Shape.rowMajor_val_two]
    show (128 * p.val + q.val) * 128 + e.val = (p.val * 128 + q.val) * 128 + e.val
    omega)

/-- A 128-vector cast to 1 × 1 × 128 reads, at (u, w, e), the operand at e. -/
theorem cast_vec_apply (x : S128.Idx → α) (h : S128.ShapeCasts S1x1x128) (u w : Fin 1) (e : Fin 128) :
    shapeCast S1x1x128 x h (ix3 u w e) = x (ix1 e) :=
  shapeCast_apply x h _ _ (by
    have hu : u.val = 0 := by omega
    have hw : w.val = 0 := by omega
    rw [Shape.rowMajor_val_three, Shape.rowMajor_val_one]
    show e.val = (u.val * 1 + w.val) * 128 + e.val
    omega)

/-- A 1 × 1 × 128 array broadcast along its two leading axes reads, at (p, q, e), the operand at (0, 0, e). -/
theorem bcast_vec_apply (x : S1x1x128.Idx → α) (h : S1x1x128.Broadcasts S128x128x128) (p q e : Fin 128) :
    broadcastTo S128x128x128 x h (ix3 p q e) = x (ix3 (0 : Fin 1) (0 : Fin 1) e) := by
  refine broadcastTo_apply x h (ix3 p q e) (ix3 (0 : Fin 1) (0 : Fin 1) e) fun ax => ?_
  match ax with
  | ⟨0, _⟩ => rfl
  | ⟨1, _⟩ => rfl
  | ⟨2, _⟩ => show e.val = if (128 : Nat) = 1 then 0 else e.val; rw [if_neg (by decide)]

/-! ## The matrix product at an index

The product contracts axis 1 of the 16384 × 128 matrix against axis 1 of the 128 × 128 weight block: the four
coordinates of its two operand indices, then the product read as a sum over the 128 contracted positions. -/

theorem lhs_mm_0 (i : S16384x128.Idx) (k : dot_S16384x128_S128x128_S16384x128_1_1_0_0_n_n.contr.Idx) :
    (dot_S16384x128_S128x128_S16384x128_1_1_0_0_n_n.lhsIdx i k 0).val = (i 0).val := by
  unfold DotDims.lhsIdx
  rw [dif_neg (show ¬(0 : Fin S16384x128.rank) ∈ dot_S16384x128_S128x128_S16384x128_1_1_0_0_n_n.lhsBatch by decide), dif_pos (show (0 : Fin S16384x128.rank) ∈ dot_S16384x128_S128x128_S16384x128_1_1_0_0_n_n.lhsNonContracting by decide)]
  rfl
theorem lhs_mm_1 (i : S16384x128.Idx) (k : dot_S16384x128_S128x128_S16384x128_1_1_0_0_n_n.contr.Idx) :
    (dot_S16384x128_S128x128_S16384x128_1_1_0_0_n_n.lhsIdx i k 1).val = (k ⟨0, by decide⟩).val :=
  dot_S16384x128_S128x128_S16384x128_1_1_0_0_n_n.lhsIdx_val_of_single rfl i k
theorem rhs_mm_0 (i : S16384x128.Idx) (k : dot_S16384x128_S128x128_S16384x128_1_1_0_0_n_n.contr.Idx) :
    (dot_S16384x128_S128x128_S16384x128_1_1_0_0_n_n.rhsIdx i k 0).val = (i 1).val := by
  unfold DotDims.rhsIdx
  rw [dif_neg (show ¬(0 : Fin S128x128.rank) ∈ dot_S16384x128_S128x128_S16384x128_1_1_0_0_n_n.rhsBatch by decide), dif_pos (show (0 : Fin S128x128.rank) ∈ dot_S16384x128_S128x128_S16384x128_1_1_0_0_n_n.rhsNonContracting by decide)]
  rfl
theorem rhs_mm_1 (i : S16384x128.Idx) (k : dot_S16384x128_S128x128_S16384x128_1_1_0_0_n_n.contr.Idx) :
    (dot_S16384x128_S128x128_S16384x128_1_1_0_0_n_n.rhsIdx i k 1).val = (k ⟨0, by decide⟩).val :=
  dot_S16384x128_S128x128_S16384x128_1_1_0_0_n_n.rhsIdx_val_of_single rfl i k

/-- Into the zero accumulator, entry (r, e) of the product is the sum over d of A[r, d] · B[e, d]. -/
theorem mm_apply (A : FVec Ideal S16384x128 .bf16) (B : FVec Ideal S128x128 .bf16) (r : Fin 16384) (e : Fin 128) :
    matmul dot_S16384x128_S128x128_S16384x128_1_1_0_0_n_n none A B (constant (F := Ideal) S16384x128 .f32 0x00000000#32) (ix2 r e)
      = ∑ d : Fin 128, A (ix2 r d) * B (ix2 e d) := by
  simp only [matmul]
  rw [Ideal.matmul_constant_zero_apply, ← Equiv.sum_comp (contrEquiv1 dot_S16384x128_S128x128_S16384x128_1_1_0_0_n_n 128 rfl rfl).symm]
  refine Finset.sum_congr rfl fun d _ => ?_
  have hd := contrEquiv1_symm_val dot_S16384x128_S128x128_S16384x128_1_1_0_0_n_n 128 rfl rfl d
  have el : dot_S16384x128_S128x128_S16384x128_1_1_0_0_n_n.lhsIdx (ix2 r e) ((contrEquiv1 dot_S16384x128_S128x128_S16384x128_1_1_0_0_n_n 128 rfl rfl).symm d) = ix2 r d := funext fun a => Fin.ext (by
    match a with
    | ⟨0, _⟩ => exact lhs_mm_0 _ _
    | ⟨1, _⟩ => exact (lhs_mm_1 _ _).trans hd)
  have er : dot_S16384x128_S128x128_S16384x128_1_1_0_0_n_n.rhsIdx (ix2 r e) ((contrEquiv1 dot_S16384x128_S128x128_S16384x128_1_1_0_0_n_n 128 rfl rfl).symm d) = ix2 e d := funext fun a => Fin.ext (by
    match a with
    | ⟨0, _⟩ => exact rhs_mm_0 _ _
    | ⟨1, _⟩ => exact (rhs_mm_1 _ _).trans hd)
  rw [el, er]

/-! ## The stored value at an index -/

/-- The body's stored value at (p, q, e): the feature-wise product of row p of the first block and row q of the
    second, contracted against row e of the weight block, plus the bias at e. -/
theorem pay_apply (v0 v2 v11 : Vec Ideal S128x128 .f32) (v15 : Vec Ideal S128 .f32) (p q e : Fin 128) :
    k0_pay1 (F := Ideal) v0 v2 v11 v15 (ix3 p q e)
      = (∑ d : Fin 128, (v0 (ix2 p d) * v2 (ix2 q d)) * v11 (ix2 e d)) + v15 (ix1 e) := by
  unfold k0_pay1
  refine (addf_apply _ _ _).trans ?_
  refine congrArg₂ (· + ·) ?_ ?_
  · refine (fold_apply _ _ p q e).trans ?_
    refine (mm_apply _ _ (row p q) e).trans ?_
    refine Finset.sum_congr rfl fun d _ => ?_
    refine congrArg₂ (· * ·) ?_ ?_
    · refine (truncf_apply (φ := .f32) (ψ := .bf16) _ _ _).trans ?_
      refine (flatten_apply _ _ p q d).trans ?_
      refine (mulf_apply _ _ _).trans ?_
      refine congrArg₂ (· * ·) ?_ ?_
      · refine (bcast_mid_apply _ _ p q d).trans ?_
        refine (cast_mid_apply _ _ p (0 : Fin 1) d).trans ?_
        exact congrFun (shapeCast_self v0 _) _
      · refine (bcast_lead_apply _ _ p q d).trans ?_
        refine (shapeCast_ab_1ab_apply _ _ (0 : Fin 1) q d).trans ?_
        exact congrFun (shapeCast_self v2 _) _
    · exact truncf_apply (φ := .f32) (ψ := .bf16) _ _ _
  · refine (bcast_vec_apply _ _ p q e).trans ?_
    exact cast_vec_apply _ _ (0 : Fin 1) (0 : Fin 1) e

end Cert.KernelIdeal.Pay

end
-- ==== Proof.Spec.lean ====
/-
  The common mathematical content of the two programs, over literal shapes and the extended reals.

  With  left[i, e] = (∑ₖ x[0, i, k] · W_in[e, k]) + b_in[e]   (a 768 × 128 array),
  the result is       out[0, i, j, e] = (∑_d (left[i, d] · left[j, d]) · W_out[e, d]) + b_out[e].
  Both programs compute exactly these sums in exactly this grouping, so no law beyond reading each
  operation at an index is needed to join them.
-/
import Idealize.ShloMosaic.PureOps.Ideal
import Idealize.ShloMosaic.Lib.ValueIdx

noncomputable section

namespace Cert.OuterSpec

open Idealize.ShloMosaic Idealize.ShloMosaic.ValueIdx

/-- The input projection: row `i` of `x` against row `e` of `W_in`, plus the bias. -/
def left (x : (⟨3, ![1, 768, 128]⟩ : Shape).Idx → EReal) (win : (⟨2, ![128, 128]⟩ : Shape).Idx → EReal)
    (bin : (⟨1, ![128]⟩ : Shape).Idx → EReal) (i : Fin 768) (e : Fin 128) : EReal :=
  (∑ k : Fin 128, x (ix3 0 i k) * win (ix2 e k)) + bin (ix1 e)

/-- The output projection of the feature-wise product of rows `i` and `j` of a 768 × 128 array `l`. -/
def proj (l : Fin 768 → Fin 128 → EReal) (wout : (⟨2, ![128, 128]⟩ : Shape).Idx → EReal)
    (bout : (⟨1, ![128]⟩ : Shape).Idx → EReal) (i j : Fin 768) (e : Fin 128) : EReal :=
  (∑ d : Fin 128, (l i d * l j d) * wout (ix2 e d)) + bout (ix1 e)

/-- The whole result as one function of the five argument arrays. -/
def G (x : (⟨3, ![1, 768, 128]⟩ : Shape).Idx → EReal) (win : (⟨2, ![128, 128]⟩ : Shape).Idx → EReal)
    (bin : (⟨1, ![128]⟩ : Shape).Idx → EReal) (wout : (⟨2, ![128, 128]⟩ : Shape).Idx → EReal)
    (bout : (⟨1, ![128]⟩ : Shape).Idx → EReal) : (⟨4, ![1, 768, 768, 128]⟩ : Shape).Idx → EReal :=
  fun q => proj (left x win bin) wout bout (q 1) (q 2) (q 3)

end Cert.OuterSpec

end
-- ==== Proof.IdealValue.lean ====
/-
  The result array of the one kernel region after all 36 grid points, at the ideal instance, as ONE function of the
  contents the region is entered with.

  The grid is 6 × 6. At the point with coordinates (a, b) the first window holds rows 128a … 128a + 127 of the
  768 × 128 array, the second window rows 128b … 128b + 127 of the same array, the third and fourth the whole
  128 × 128 weight and the whole 128-vector bias, and the fifth is written back over block (a, b, 0) of the
  768 × 768 × 128 result. The body's value at (p, q, e) of its block is
      (∑_d (x0[p, d] · x1[q, d]) · w[e, d]) + bias[e],
  so at the place (128a + p, 128b + q, e) of the result it is the output projection of rows 128a + p and 128b + q of
  the array. Every index (i, j, e) of the result lies in the block of the point (i / 128, j / 128), and so the
  array ends holding that projection everywhere.
-/
import proofs.«169702_j46505905881344_1_alg».proof.Proof.IdealDat
import proofs.«169702_j46505905881344_1_alg».proof.Proof.Payload
import proofs.«169702_j46505905881344_1_alg».proof.Proof.Spec
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The block indices of the five windows at each of the 36 grid points: the first window's row block is the result
    block's first coordinate, the second window's its second, every other block index is zero, and both coordinates
    stay below 6. -/
theorem block_indices : ∀ t : Fin cfg0.N,
      win0_0.index t (0 : Fin 2) = win0_4.index t (0 : Fin 3)
    ∧ win0_0.index t (1 : Fin 2) = 0
    ∧ win0_1.index t (0 : Fin 2) = win0_4.index t (1 : Fin 3)
    ∧ win0_1.index t (1 : Fin 2) = 0
    ∧ win0_2.index t (0 : Fin 2) = 0
    ∧ win0_2.index t (1 : Fin 2) = 0
    ∧ win0_3.index t (0 : Fin 1) = 0
    ∧ win0_4.index t (2 : Fin 3) = 0
    ∧ win0_4.index t (0 : Fin 3) ≤ 5
    ∧ win0_4.index t (1 : Fin 3) ≤ 5 :=
  (by decide +kernel : ∀ t : Fin grid0.N, _)

/-- Every pair of block coordinates is some grid point's. -/
theorem block_onto : ∀ (a b : Fin 6), ∃ t : Fin cfg0.N, win0_4.index t = ![a.val, b.val, 0] :=
  (by decide +kernel : ∀ (a b : Fin 6), ∃ t : Fin grid0.N, win0_4.index t = ![a.val, b.val, 0])

/-- The result array as one function of the three arrays the region reads. -/
def outFn (A : S768x128.Idx → EReal) (W : S128x128.Idx → EReal) (B : S128.Idx → EReal) : S768x768x128.Idx → EReal :=
  fun q => Cert.OuterSpec.proj (fun i d => A (ix2 i d)) W B (q 0) (q 1) (q 2)

/-- The body's value at (p, q, e), when row p of the first block is row i of the array, row q of the second
    block is row j, and the weight and bias blocks are the whole weight and bias. -/
theorem pay_rows (x0 x1 x2 : Vec Ideal S128x128 .f32) (x3 : Vec Ideal S128 .f32)
    (A : S768x128.Idx → EReal) (W : S128x128.Idx → EReal) (B : S128.Idx → EReal)
    (p q e : Fin 128) (i j : Fin 768)
    (h0 : ∀ d : Fin 128, x0 (ix2 p d) = A (ix2 i d))
    (h1 : ∀ d : Fin 128, x1 (ix2 q d) = A (ix2 j d))
    (h2 : ∀ d : Fin 128, x2 (ix2 e d) = W (ix2 e d))
    (h3 : x3 (ix1 e) = B (ix1 e)) :
    k0_pay1 (F := Ideal) x0 x1 x2 x3 (ix3 p q e) = Cert.OuterSpec.proj (fun i d => A (ix2 i d)) W B i j e := by
  rw [Pay.pay_apply]
  unfold Cert.OuterSpec.proj
  simp only [h0, h1, h2, h3]

/-- The same at a block index y and an array index k. -/
theorem pay_at (x0 x1 x2 : Vec Ideal S128x128 .f32) (x3 : Vec Ideal S128 .f32)
    (A : S768x128.Idx → EReal) (W : S128x128.Idx → EReal) (B : S128.Idx → EReal)
    (y : S128x128x128.Idx) (k : S768x768x128.Idx)
    (h0 : ∀ d : Fin 128, x0 (ix2 (y 0) d) = A (ix2 (k 0) d))
    (h1 : ∀ d : Fin 128, x1 (ix2 (y 1) d) = A (ix2 (k 1) d))
    (h2 : ∀ d : Fin 128, x2 (ix2 (y 2) d) = W (ix2 (k 2) d))
    (h3 : x3 (ix1 (y 2)) = B (ix1 (k 2)))
    (he : (y 2).val = (k 2).val) :
    k0_pay1 (F := Ideal) x0 x1 x2 x3 y = outFn A W B k := by
  have hk : (k 2 : Fin 128) = y 2 := Fin.ext he.symm
  unfold outFn
  rw [hk]
  refine (congrArg (k0_pay1 (F := Ideal) x0 x1 x2 x3) (eq_ix3 y)).trans (pay_rows x0 x1 x2 x3 A W B (y 0) (y 1) (y 2) (k 0) (k 1) h0 h1 ?_ ?_)
  · intro d; rw [h2 d, hk]
  · rw [h3, hk]

variable (V : (c : Dev nD) → (b : Ref sig .tc) → Buf (Elt Ideal) ((c : Thread nD τ).loc b))

/-- Row p of the first window's block at point t is row (block index × 128 + p) of the 768 × 128 array. -/
theorem blk0_row (c : Dev nD) (t : Fin cfg0.N) (p d : Fin 128) (i : Fin 768)
    (hi : i.val = win0_0.index t (0 : Fin 2) * 128 + p.val) :
    (iblk0 V c 0 t : Vec Ideal S128x128 .f32) (ix2 p d) = (V c main_v4 : S768x128.Idx → EReal) (ix2 i d) := by
  have h1 : win0_0.index t (1 : Fin 2) = 0 := (block_indices t).2.1
  show V c main_v4 (((cfg0.win 0).blk t).view.emb (ix2 p d)) = V c main_v4 (ix2 i d)
  congr 1
  funext a; apply Fin.ext
  match a with
  | ⟨0, _⟩ => show win0_0.index t (0 : Fin 2) * 128 + 1 * p.val = i.val; omega
  | ⟨1, _⟩ => show win0_0.index t (1 : Fin 2) * 128 + 1 * d.val = d.val; omega

/-- The same for the second window, which reads the same array by the grid's other coordinate. -/
theorem blk1_row (c : Dev nD) (t : Fin cfg0.N) (p d : Fin 128) (i : Fin 768)
    (hi : i.val = win0_1.index t (0 : Fin 2) * 128 + p.val) :
    (iblk0 V c 1 t : Vec Ideal S128x128 .f32) (ix2 p d) = (V c main_v4 : S768x128.Idx → EReal) (ix2 i d) := by
  have h1 : win0_1.index t (1 : Fin 2) = 0 := (block_indices t).2.2.2.1
  show V c main_v4 (((cfg0.win 1).blk t).view.emb (ix2 p d)) = V c main_v4 (ix2 i d)
  congr 1
  funext a; apply Fin.ext
  match a with
  | ⟨0, _⟩ => show win0_1.index t (0 : Fin 2) * 128 + 1 * p.val = i.val; omega
  | ⟨1, _⟩ => show win0_1.index t (1 : Fin 2) * 128 + 1 * d.val = d.val; omega

/-- The third window's block is the whole weight. -/
theorem blk2_whole (c : Dev nD) (t : Fin cfg0.N) (e d : Fin 128) :
    (iblk0 V c 2 t : Vec Ideal S128x128 .f32) (ix2 e d) = (V c main_arg3 : S128x128.Idx → EReal) (ix2 e d) := by
  obtain ⟨-, -, -, -, h0, h1, -⟩ := block_indices t
  show V c main_arg3 (((cfg0.win 2).blk t).view.emb (ix2 e d)) = V c main_arg3 (ix2 e d)
  congr 1
  funext a; apply Fin.ext
  match a with
  | ⟨0, _⟩ => show win0_2.index t (0 : Fin 2) * 128 + 1 * e.val = e.val; omega
  | ⟨1, _⟩ => show win0_2.index t (1 : Fin 2) * 128 + 1 * d.val = d.val; omega

/-- The fourth window's block is the whole bias. -/
theorem blk3_whole (c : Dev nD) (t : Fin cfg0.N) (e : Fin 128) :
    (iblk0 V c 3 t : Vec Ideal S128 .f32) (ix1 e) = (V c main_arg4 : S128.Idx → EReal) (ix1 e) := by
  obtain ⟨-, -, -, -, -, -, h0, -⟩ := block_indices t
  show V c main_arg4 (((cfg0.win 3).blk t).view.emb (ix1 e)) = V c main_arg4 (ix1 e)
  congr 1
  funext a; apply Fin.ext
  match a with
  | ⟨0, _⟩ => show win0_3.index t (0 : Fin 1) * 128 + 1 * e.val = e.val; omega

/-- What the body computes at point t, at an index y of the output block, is the result function at the
    place of the array where the block puts y. -/
theorem point_value (c : Dev nD) (t : Fin cfg0.N) (y : S128x128x128.Idx) :
    k0_pay1 (F := Ideal) (iblk0 V c 0 t) (iblk0 V c 1 t) (iblk0 V c 2 t) (iblk0 V c 3 t) y
      = outFn (V c main_v4) (V c main_arg3) (V c main_arg4) (((cfg0.win 4).blk t).view.emb y) := by
  obtain ⟨e0, -, e1, -, -, -, -, e2, -, -⟩ := block_indices t
  have k2 : ((((cfg0.win 4).blk t).view.emb y) 2 : Fin 128) = y 2 := by
    apply Fin.ext
    show win0_4.index t (2 : Fin 3) * 128 + 1 * (y 2).val = (y 2).val
    omega
  refine pay_at _ _ _ _ _ _ _ y _ (fun d => blk0_row V c t (y 0) d _ ?_) (fun d => blk1_row V c t (y 1) d _ ?_) (fun d => ?_) ?_ ?_
  · show win0_4.index t (0 : Fin 3) * 128 + 1 * (y 0).val = win0_0.index t (0 : Fin 2) * 128 + (y 0).val
    omega
  · show win0_4.index t (1 : Fin 3) * 128 + 1 * (y 1).val = win0_1.index t (0 : Fin 2) * 128 + (y 1).val
    omega
  · rw [k2]; exact blk2_whole V c t (y 2) d
  · rw [k2]; exact blk3_whole V c t (y 2)
  · exact (congrArg Fin.val k2).symm

/-- What point t writes back is block t of the result function of the arrays as the region finds them. -/
theorem flushed_out (c : Dev nD) (t : Fin cfg0.N) :
    (dat0 V c).flushed 4 t
      = ((cfg0.win 4).blk t).view.read (Elt Ideal) (outFn (V c main_v4) (V c main_arg3) (V c main_arg4)) := by
  show (cfg0.win 4).cut (grid0.coords t) ((dat0 V c).after 4 t) = _
  rw [after0_4]
  unfold out0_4
  rw [View.canon_unit_zero zero3]
  simp only [View.ld_unit_zero (S := S128x128) zero2, View.ld_unit_zero (S := S128) zero1]
  funext y
  exact point_value V c t y

/-- An index of the result array is in point t's block iff each coordinate is in the block's range on its axis. -/
theorem mem_out_blk (t : Fin cfg0.N) (i : S768x768x128.Idx) :
    i ∈ ((cfg0.win 4).blk t).view.set
      ↔ ∀ a : Fin 3, win0_4.index t a * S128x128x128.size a ≤ (i a).val
          ∧ (i a).val < win0_4.index t a * S128x128x128.size a + S128x128x128.size a := by
  show i ∈ ((View.whole main_v5).slice (win0_4.rect t)).set ↔ _
  rw [View.set_slice_whole, Rect.mem_set_unit]
  exact Iff.rfl

/-- Every index (i, j, e) of the result array lies in the block of the point with block coordinates
    (i / 128, j / 128). -/
theorem out_covered (i : S768x768x128.Idx) :
    ∃ t : Fin cfg0.N, (cfg0.win 4).flush t = true ∧ i ∈ ((cfg0.win 4).blk t).view.set := by
  have hi0 : (i 0).val < 768 := (i 0).isLt
  have hi1 : (i 1).val < 768 := (i 1).isLt
  have hi2 : (i 2).val < 128 := (i 2).isLt
  obtain ⟨t, ht⟩ := block_onto ⟨(i 0).val / 128, by omega⟩ ⟨(i 1).val / 128, by omega⟩
  have q0 : win0_4.index t (0 : Fin 3) = (i 0).val / 128 := congrFun ht 0
  have q1 : win0_4.index t (1 : Fin 3) = (i 1).val / 128 := congrFun ht 1
  have q2 : win0_4.index t (2 : Fin 3) = 0 := congrFun ht 2
  refine ⟨t, flush0_4 t, ?_⟩
  rw [mem_out_blk]
  intro a
  match a with
  | ⟨0, _⟩ => show win0_4.index t (0 : Fin 3) * 128 ≤ (i 0).val ∧ (i 0).val < win0_4.index t (0 : Fin 3) * 128 + 128; omega
  | ⟨1, _⟩ => show win0_4.index t (1 : Fin 3) * 128 ≤ (i 1).val ∧ (i 1).val < win0_4.index t (1 : Fin 3) * 128 + 128; omega
  | ⟨2, _⟩ => show win0_4.index t (2 : Fin 3) * 128 ≤ (i 2).val ∧ (i 2).val < win0_4.index t (2 : Fin 3) * 128 + 128; omega

/-- The result array after all 36 points, as one function of the arrays the region is entered with. -/
theorem arrAt_out (c : Dev nD) :
    ((dat0 V c).arrAt 4 cfg0.N : S768x768x128.Idx → EReal)
      = fun q => Cert.OuterSpec.proj (fun i d => (V c main_v4 : S768x128.Idx → EReal) (ix2 i d))
          (V c main_arg3) (V c main_arg4) (q 0) (q 1) (q 2) :=
  (dat0 V c).arrAt_eq_of_cover 4 (outFn (V c main_v4) (V c main_arg3) (V c main_arg4))
    (fun t _ => flushed_out V c t) out_covered

end Cert.KernelIdeal.HandValue

end
-- ==== Proof.HostSide.lean ====
import proofs.«169702_j46505905881344_1_alg».proof.Proof.Gen.KernelIdeal.Launch
import proofs.«169702_j46505905881344_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostV

open Cert.KernelIdeal Cert.KernelIdeal.Gen Idealize.ShloMosaic Idealize.ShloMosaic.TcCoe Idealize.SL.Sem
open Idealize.ShloMosaic.StableHlo Idealize.ShloMosaic.ValueIdx

/-! ## The input projection's contraction at an index

The host's `dot_general` contracts axis 1 of the 768 × 128 left operand with axis 1 of the 128 × 128 right
operand: output axis 0 is the left operand's row, output axis 1 the right operand's row. -/

theorem lhs_dot_0 (i : S768x128.Idx) (q : dot_S768x128_S128x128_S768x128_1_1_0_0_n_n.contr.Idx) :
    (dot_S768x128_S128x128_S768x128_1_1_0_0_n_n.lhsIdx i q 0).val = (i 0).val := by
  unfold DotDims.lhsIdx
  rw [dif_neg (show ¬(0 : Fin S768x128.rank) ∈ dot_S768x128_S128x128_S768x128_1_1_0_0_n_n.lhsBatch by decide), dif_pos (show (0 : Fin S768x128.rank) ∈ dot_S768x128_S128x128_S768x128_1_1_0_0_n_n.lhsNonContracting by decide)]
  rfl
theorem lhs_dot_1 (i : S768x128.Idx) (q : dot_S768x128_S128x128_S768x128_1_1_0_0_n_n.contr.Idx) :
    (dot_S768x128_S128x128_S768x128_1_1_0_0_n_n.lhsIdx i q 1).val = (q ⟨0, by decide⟩).val :=
  dot_S768x128_S128x128_S768x128_1_1_0_0_n_n.lhsIdx_val_of_single rfl i q
theorem rhs_dot_0 (i : S768x128.Idx) (q : dot_S768x128_S128x128_S768x128_1_1_0_0_n_n.contr.Idx) :
    (dot_S768x128_S128x128_S768x128_1_1_0_0_n_n.rhsIdx i q 0).val = (i 1).val := by
  unfold DotDims.rhsIdx
  rw [dif_neg (show ¬(0 : Fin S128x128.rank) ∈ dot_S768x128_S128x128_S768x128_1_1_0_0_n_n.rhsBatch by decide), dif_pos (show (0 : Fin S128x128.rank) ∈ dot_S768x128_S128x128_S768x128_1_1_0_0_n_n.rhsNonContracting by decide)]
  rfl
theorem rhs_dot_1 (i : S768x128.Idx) (q : dot_S768x128_S128x128_S768x128_1_1_0_0_n_n.contr.Idx) :
    (dot_S768x128_S128x128_S768x128_1_1_0_0_n_n.rhsIdx i q 1).val = (q ⟨0, by decide⟩).val :=
  dot_S768x128_S128x128_S768x128_1_1_0_0_n_n.rhsIdx_val_of_single rfl i q

/-- At the ideal values the contraction's element `(i, e)` is row `i` of the left operand against row `e` of the right. -/
theorem dot_apply (l : FVec Ideal S768x128 .f32) (r : FVec Ideal S128x128 .f32)
    (i : Fin 768) (e : Fin 128) :
    Host.dotGeneral (F := Ideal) dot_S768x128_S128x128_S768x128_1_1_0_0_n_n none l r (ix2 i e) = ∑ k : Fin 128, l (ix2 i k) * r (ix2 e k) := by
  simp only [Host.dotGeneral]
  rw [Ideal.dotGeneral_apply, ← Equiv.sum_comp (contrEquiv1 dot_S768x128_S128x128_S768x128_1_1_0_0_n_n 128 rfl rfl).symm]
  refine Finset.sum_congr rfl fun k _ => ?_
  have hk := contrEquiv1_symm_val dot_S768x128_S128x128_S768x128_1_1_0_0_n_n 128 rfl rfl k
  have el : dot_S768x128_S128x128_S768x128_1_1_0_0_n_n.lhsIdx (ix2 i e) ((contrEquiv1 dot_S768x128_S128x128_S768x128_1_1_0_0_n_n 128 rfl rfl).symm k) = ix2 i k := funext fun a => Fin.ext (by
    match a with
    | ⟨0, _⟩ => exact lhs_dot_0 _ _
    | ⟨1, _⟩ => exact (lhs_dot_1 _ _).trans hk)
  have er : dot_S768x128_S128x128_S768x128_1_1_0_0_n_n.rhsIdx (ix2 i e) ((contrEquiv1 dot_S768x128_S128x128_S768x128_1_1_0_0_n_n 128 rfl rfl).symm k) = ix2 e k := funext fun a => Fin.ext (by
    match a with
    | ⟨0, _⟩ => exact rhs_dot_0 _ _
    | ⟨1, _⟩ => exact (rhs_dot_1 _ _).trans hk)
  rw [el, er]

/-! ## The bias, broadcast to a row and then over the rows -/

/-- The bias vector laid out as one row and repeated over the 768 rows reads, at `(i, e)`, the vector at `e`. -/
theorem bias_apply (b : FVec Ideal S128 .f32) (i : Fin 768) (e : Fin 128) :
    broadcastInDim S768x128 ![0, 1] bcast_S1x128_S768x128_0_1 (broadcastInDim S1x128 ![1] bcast_S128_S1x128_1 b) (ix2 i e)
      = b (ix1 e) := by
  generalize hy : broadcastInDim S1x128 ![1] bcast_S128_S1x128_1 b = y
  refine (broadcastInDim_apply _ bcast_S1x128_S768x128_0_1 y (ix2 i e) (ix2 (0 : Fin 1) e) (fun a => match a with
    | ⟨0, _⟩ => by show 0 = if (1 : Nat) = 1 then 0 else i.val; rw [if_pos rfl]
    | ⟨1, _⟩ => by show e.val = if (128 : Nat) = 1 then 0 else e.val; rw [if_neg (by decide)])).trans ?_
  rw [← hy]
  exact broadcastInDim_apply _ bcast_S128_S1x128_1 b (ix2 (0 : Fin 1) e) (ix1 e) (fun a => match a with
    | ⟨0, _⟩ => by show e.val = if (128 : Nat) = 1 then 0 else e.val; rw [if_neg (by decide)])

/-! ## The host operations before the kernel region, composed -/

/-- What the five host operations leave in their last result, as one function of the three arrays they read. -/
def leftVal (x0 : FVec Ideal S1x768x128 .f32) (x1 : FVec Ideal S128x128 .f32)
    (x2 : FVec Ideal S128 .f32) : FVec Ideal S768x128 .f32 :=
  addf (Host.dotGeneral (F := Ideal) dot_S768x128_S128x128_S768x128_1_1_0_0_n_n none (shapeCast S768x128 x0 shapeCasts_S1x768x128_S768x128) x1)
    (broadcastInDim S768x128 ![0, 1] bcast_S1x128_S768x128_0_1 (broadcastInDim S1x128 ![1] bcast_S128_S1x128_1 x2))

/-- Read at `(i, e)` it is the specification's input projection: the leading unit axis of `x` is dropped by the
    reshape, the contraction runs over the feature axis, and the bias is added. -/
theorem leftVal_apply (x0 : FVec Ideal S1x768x128 .f32) (x1 : FVec Ideal S128x128 .f32)
    (x2 : FVec Ideal S128 .f32) (i : Fin 768) (e : Fin 128) :
    leftVal x0 x1 x2 (ix2 i e) = Cert.OuterSpec.left x0 x1 x2 i e := by
  unfold leftVal Cert.OuterSpec.left
  refine (addf_apply _ _ _).trans ?_
  rw [dot_apply, bias_apply]
  refine congrArg (· + x2 (ix1 e)) (Finset.sum_congr rfl fun k _ => ?_)
  rw [shapeCast_1ab_ab_apply]

theorem left_term (W : Valuation τ sig (Elt Ideal)) :
    StableHlo.after (hostOps0 (F := Ideal)) W (Proc.devRef .tc main_v4)
      = leftVal (W (Proc.devRef .tc main_arg0)) (W (Proc.devRef .tc main_arg1)) (W (Proc.devRef .tc main_arg2)) := by
  show StableHlo.after hostOps0 W (Proc.devRef .tc main_v4) = _
  after_results
  rfl

/-- After the host operations that precede the kernel region, `main_v4` holds the input projection. -/
theorem left_apply (W : Valuation τ sig (Elt Ideal)) (i : Fin 768) (e : Fin 128) :
    (StableHlo.after (hostOps0 (F := Ideal)) W (Proc.devRef .tc main_v4) : S768x128.Idx → EReal) (ValueIdx.ix2 i e)
      = Cert.OuterSpec.left (W (Proc.devRef .tc main_arg0)) (W (Proc.devRef .tc main_arg1)) (W (Proc.devRef .tc main_arg2)) i e :=
  (congrFun (left_term W) (ix2 i e)).trans (leftVal_apply _ _ _ i e)

/-! ## The argument arrays are not written by the host operations before the region -/

theorem kept0_arg0 (W : Valuation τ sig (Elt Ideal)) :
    StableHlo.after (hostOps0 (F := Ideal)) W (Proc.devRef .tc main_arg0) = W (Proc.devRef .tc main_arg0) := by
  show StableHlo.after hostOps0 W (Proc.devRef .tc main_arg0) = _
  after_results
theorem kept0_arg1 (W : Valuation τ sig (Elt Ideal)) :
    StableHlo.after (hostOps0 (F := Ideal)) W (Proc.devRef .tc main_arg1) = W (Proc.devRef .tc main_arg1) := by
  show StableHlo.after hostOps0 W (Proc.devRef .tc main_arg1) = _
  after_results
theorem kept0_arg2 (W : Valuation τ sig (Elt Ideal)) :
    StableHlo.after (hostOps0 (F := Ideal)) W (Proc.devRef .tc main_arg2) = W (Proc.devRef .tc main_arg2) := by
  show StableHlo.after hostOps0 W (Proc.devRef .tc main_arg2) = _
  after_results
theorem kept0_arg3 (W : Valuation τ sig (Elt Ideal)) :
    StableHlo.after (hostOps0 (F := Ideal)) W (Proc.devRef .tc main_arg3) = W (Proc.devRef .tc main_arg3) := by
  show StableHlo.after hostOps0 W (Proc.devRef .tc main_arg3) = _
  after_results
theorem kept0_arg4 (W : Valuation τ sig (Elt Ideal)) :
    StableHlo.after (hostOps0 (F := Ideal)) W (Proc.devRef .tc main_arg4) = W (Proc.devRef .tc main_arg4) := by
  show StableHlo.after hostOps0 W (Proc.devRef .tc main_arg4) = _
  after_results

/-! ## The host operation after the kernel region: a leading unit axis added -/

theorem tail_term (W : Valuation τ sig (Elt Ideal)) :
    (StableHlo.after (hostOps1 (F := Ideal)) W (Proc.devRef .tc main_v6) : S1x768x768x128.Idx → EReal)
      = shapeCast S1x768x768x128 (W (Proc.devRef .tc main_v5)) shapeCasts_S768x768x128_S1x768x768x128 := by
  show StableHlo.after hostOps1 W (Proc.devRef .tc main_v6) = _
  after_results
  rfl

/-- The result array reads, at `(0, i, j, e)`, the kernel region's output at `(i, j, e)`. -/
theorem tail_apply (W : Valuation τ sig (Elt Ideal)) (i j : Fin 768) (e : Fin 128) :
    (StableHlo.after (hostOps1 (F := Ideal)) W (Proc.devRef .tc main_v6) : S1x768x768x128.Idx → EReal) (ValueIdx.ix4 0 i j e)
      = (W (Proc.devRef .tc main_v5) : S768x768x128.Idx → EReal) (ValueIdx.ix3 i j e) :=
  (congrFun (tail_term W) (ix4 0 i j e)).trans
    (shapeCast_abc_1abc_apply (W (Proc.devRef .tc main_v5)) shapeCasts_S768x768x128_S1x768x768x128 0 i j e)

/-! ## The argument arrays are not written by the host operation after the region -/

theorem kept1_arg0 (W : Valuation τ sig (Elt Ideal)) :
    StableHlo.after (hostOps1 (F := Ideal)) W (Proc.devRef .tc main_arg0) = W (Proc.devRef .tc main_arg0) := by
  show StableHlo.after hostOps1 W (Proc.devRef .tc main_arg0) = _
  after_results
theorem kept1_arg1 (W : Valuation τ sig (Elt Ideal)) :
    StableHlo.after (hostOps1 (F := Ideal)) W (Proc.devRef .tc main_arg1) = W (Proc.devRef .tc main_arg1) := by
  show StableHlo.after hostOps1 W (Proc.devRef .tc main_arg1) = _
  after_results
theorem kept1_arg2 (W : Valuation τ sig (Elt Ideal)) :
    StableHlo.after (hostOps1 (F := Ideal)) W (Proc.devRef .tc main_arg2) = W (Proc.devRef .tc main_arg2) := by
  show StableHlo.after hostOps1 W (Proc.devRef .tc main_arg2) = _
  after_results
theorem kept1_arg3 (W : Valuation τ sig (Elt Ideal)) :
    StableHlo.after (hostOps1 (F := Ideal)) W (Proc.devRef .tc main_arg3) = W (Proc.devRef .tc main_arg3) := by
  show StableHlo.after hostOps1 W (Proc.devRef .tc main_arg3) = _
  after_results
theorem kept1_arg4 (W : Valuation τ sig (Elt Ideal)) :
    StableHlo.after (hostOps1 (F := Ideal)) W (Proc.devRef .tc main_arg4) = W (Proc.devRef .tc main_arg4) := by
  show StableHlo.after hostOps1 W (Proc.devRef .tc main_arg4) = _
  after_results

end Cert.KernelIdeal.HostV

end
-- ==== Proof.IdealAlg.lean ====
/-
  The kernel program's result at the ideal instance, as one function of the five argument arrays.

  Reading backwards from the end: the last host operation only adds a leading unit axis to the region's result;
  the region's result at (i, j, e) is the projection (∑_d (l[i,d] · l[j,d]) · W_out[e,d]) + b_out[e] of the array
  `l` the region found in `left`'s buffer and of the weight and bias it found; the weight and bias are the launch
  arrays, no host operation having written them; and `l` is what the first host stretch computes,
  l[i, e] = (∑ₖ x[0,i,k] · W_in[e,k]) + b_in[e].
-/
import proofs.«169702_j46505905881344_1_alg».proof.Proof.IdealEnd
import proofs.«169702_j46505905881344_1_alg».proof.Proof.IdealValue
import proofs.«169702_j46505905881344_1_alg».proof.Proof.HostSide

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result's buffer at the end holds the common specification of the launch arrays. -/
theorem W3_out (c : Dev nD) :
    (W3 m ρ c (Proc.devRef .tc main_v6) : S1x768x768x128.Idx → EReal)
      = Cert.OuterSpec.G (m ((c : Thread nD τ).loc main_arg0)) (m ((c : Thread nD τ).loc main_arg1)) (m ((c : Thread nD τ).loc main_arg2))
          (m ((c : Thread nD τ).loc main_arg3)) (m ((c : Thread nD τ).loc main_arg4)) := by
  funext q
  obtain ⟨a, i, j, e, rfl⟩ : ∃ (a : Fin 1) (i j : Fin 768) (e : Fin 128), q = ix4 a i j e := ⟨q 0, q 1, q 2, q 3, eq_ix4 q⟩
  obtain rfl : a = 0 := Subsingleton.elim _ _
  refine (HostV.tail_apply (W2 m ρ c) i j e).trans ?_
  rw [W2_out]
  refine (congrFun (arrAt_out (V1 m ρ) c) (ix3 i j e)).trans ?_
  show Cert.OuterSpec.proj _ _ _ i j e = Cert.OuterSpec.proj _ _ _ i j e
  have hl : (fun (i : Fin 768) (d : Fin 128) => (V1 m ρ c main_v4 : S768x128.Idx → EReal) (ix2 i d))
      = Cert.OuterSpec.left (m ((c : Thread nD τ).loc main_arg0)) (m ((c : Thread nD τ).loc main_arg1)) (m ((c : Thread nD τ).loc main_arg2)) :=
    funext fun i => funext fun d => HostV.left_apply (W0 m ρ c) i d
  have h3 : V1 m ρ c main_arg3 = m ((c : Thread nD τ).loc main_arg3) := HostV.kept0_arg3 (W0 m ρ c)
  have h4 : V1 m ρ c main_arg4 = m ((c : Thread nD τ).loc main_arg4) := HostV.kept0_arg4 (W0 m ρ c)
  rw [hl, h3, h4]

/-- THE RUN with the result named: the result's buffer at the specification, the arguments as launched. -/
theorem run_G : θ_run defs (onTc (τ := τ) (main (F := Ideal))) ⟨m, fun _ => 0, ρ⟩ (fun r => ∀ c : Dev nD,
      r.2.mem ((c.tc : Thread nD τ).loc main_v6)
        = Cert.OuterSpec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v6 (by decide))).trans (W3_out m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_main m ρ)

end Cert.KernelIdeal.HandValue

end
-- ==== Proof.RefValue.lean ====
/-
  The reference program is the specification.

  The reference computes  left = x · W_inᵀ + b_in  (one contraction over the 128 input features, the bias
  broadcast along the rows), lays it out once along axis 1 and once along axis 2 of a 1 × 768 × 768 × 128 array,
  multiplies the two feature-wise, contracts the product against W_out over the feature axis and adds b_out.
  Read at an index (0, i, j, e) every broadcast lands on the coordinate it copies, and the two contractions are
  the specification's two sums term by term, in the same grouping; no algebraic law is used.
-/
import proofs.«169702_j46505905881344_1_alg».proof.Proof.Gen.ReferenceIdeal.Read
import proofs.«169702_j46505905881344_1_alg».proof.Proof.Spec

noncomputable section

namespace Cert.RefBridge

open Cert.ReferenceIdeal Cert.ReferenceIdeal.Gen Idealize.ShloMosaic Idealize.ShloMosaic.TcCoe Idealize.SL.Sem
open Idealize.ShloMosaic.StableHlo Idealize.ShloMosaic.ValueIdx Cert.ReferenceIdeal.Read

/-- The reference's fourth stage (the input projection plus its bias) at row `i`, feature `e`. -/
theorem left_eq (x : (⟨S1x768x128, .f32⟩ : BufTy).Contents (Elt Ideal)) (win : (⟨S128x128, .f32⟩ : BufTy).Contents (Elt Ideal))
    (bin : (⟨S128, .f32⟩ : BufTy).Contents (Elt Ideal)) (i : Fin 768) (e : Fin 128) :
    val_main_v3 (F := Ideal) x win bin (ix3 (0 : Fin 1) i e) = Cert.OuterSpec.left x win bin i e := by
  have hl : ∀ k : Fin 128, lidx_main_v0 (ix3 (0 : Fin 1) i e) k = ix3 (0 : Fin 1) i k := fun k => funext fun a => by
    match a with
    | ⟨0, _⟩ => rfl
    | ⟨1, _⟩ => rfl
    | ⟨2, _⟩ => rfl
  have hr : ∀ k : Fin 128, ridx_main_v0 (ix3 (0 : Fin 1) i e) k = ix2 e k := fun k => funext fun a => by
    match a with
    | ⟨0, _⟩ => rfl
    | ⟨1, _⟩ => rfl
  have hb : idx_main_v1 (idx_main_v2 (ix3 (0 : Fin 1) i e)) = ix1 e := funext fun a => by
    match a with
    | ⟨0, _⟩ => rfl
  rw [val_main_v3_apply, val_main_v0_apply, val_main_v2_apply, val_main_v1_apply, hb]
  simp only [hl, hr, Ideal.addf_def]
  rfl

/-- The reference's ninth stage (the feature-wise product of rows `i` and `j` of the projected input) at feature `d`. -/
theorem prod_eq (x : (⟨S1x768x128, .f32⟩ : BufTy).Contents (Elt Ideal)) (win : (⟨S128x128, .f32⟩ : BufTy).Contents (Elt Ideal))
    (bin : (⟨S128, .f32⟩ : BufTy).Contents (Elt Ideal)) (i j : Fin 768) (d : Fin 128) :
    val_main_v8 (F := Ideal) x win bin (ix4 (0 : Fin 1) i j d)
      = Cert.OuterSpec.left x win bin i d * Cert.OuterSpec.left x win bin j d := by
  have h6 : idx_main_v4 (idx_main_v6 (ix4 (0 : Fin 1) i j d)) = ix3 (0 : Fin 1) i d := funext fun a => by
    match a with
    | ⟨0, _⟩ => rfl
    | ⟨1, _⟩ => rfl
    | ⟨2, _⟩ => rfl
  have h7 : idx_main_v5 (idx_main_v7 (ix4 (0 : Fin 1) i j d)) = ix3 (0 : Fin 1) j d := funext fun a => by
    match a with
    | ⟨0, _⟩ => rfl
    | ⟨1, _⟩ => rfl
    | ⟨2, _⟩ => rfl
  rw [val_main_v8_apply, val_main_v6_apply, val_main_v4_apply, h6, val_main_v7_apply, val_main_v5_apply, h7,
    left_eq, left_eq, Ideal.mulf_def]

/-- The reference program's composed term is the specification `G` of its five arguments: each stage read at an
    index, the two contractions being the specification's two sums term by term. -/
theorem ref_term_eq (x : FVec Ideal S1x768x128 .f32) (win : FVec Ideal S128x128 .f32) (bin : FVec Ideal S128 .f32)
    (wout : FVec Ideal S128x128 .f32) (bout : FVec Ideal S128 .f32) :
    addf (Host.dotGeneral dot_S1x768x768x128_S128x128_S1x768x768x128_3_1_012_0_n_n none (mulf (broadcastInDim S1x768x768x128 ![0, 1, 2, 3] bcast_S1x768x1x128_S1x768x768x128_0_1_2_3 (broadcastInDim S1x768x1x128 ![0, 1, 3] bcast_S1x768x128_S1x768x1x128_0_1_3 (addf (Host.dotGeneral dot_S1x768x128_S128x128_S1x768x128_2_1_01_0_n_n none (x) (win)) (broadcastInDim S1x768x128 ![0, 1, 2] bcast_S1x1x128_S1x768x128_0_1_2 (broadcastInDim S1x1x128 ![2] bcast_S128_S1x1x128_2 (bin)))))) (broadcastInDim S1x768x768x128 ![0, 1, 2, 3] bcast_S1x1x768x128_S1x768x768x128_0_1_2_3 (broadcastInDim S1x1x768x128 ![0, 2, 3] bcast_S1x768x128_S1x1x768x128_0_2_3 (addf (Host.dotGeneral dot_S1x768x128_S128x128_S1x768x128_2_1_01_0_n_n none (x) (win)) (broadcastInDim S1x768x128 ![0, 1, 2] bcast_S1x1x128_S1x768x128_0_1_2 (broadcastInDim S1x1x128 ![2] bcast_S128_S1x1x128_2 (bin))))))) (wout)) (broadcastInDim S1x768x768x128 ![0, 1, 2, 3] bcast_S1x1x1x128_S1x768x768x128_0_1_2_3 (broadcastInDim S1x1x1x128 ![3] bcast_S128_S1x1x1x128_3 (bout)))
      = Cert.OuterSpec.G x win bin wout bout := by
  rw [val_main_v12_eq]
  funext q
  obtain ⟨a, i, j, e, rfl⟩ : ∃ (a : Fin 1) (i j : Fin 768) (e : Fin 128), q = ix4 a i j e :=
    ⟨q 0, q 1, q 2, q 3, eq_ix4 q⟩
  obtain rfl : a = 0 := Subsingleton.elim _ _
  have hl : ∀ k : Fin 128, lidx_main_v9 (ix4 (0 : Fin 1) i j e) k = ix4 (0 : Fin 1) i j k := fun k => funext fun a => by
    match a with
    | ⟨0, _⟩ => rfl
    | ⟨1, _⟩ => rfl
    | ⟨2, _⟩ => rfl
    | ⟨3, _⟩ => rfl
  have hr : ∀ k : Fin 128, ridx_main_v9 (ix4 (0 : Fin 1) i j e) k = ix2 e k := fun k => funext fun a => by
    match a with
    | ⟨0, _⟩ => rfl
    | ⟨1, _⟩ => rfl
  have hb : idx_main_v10 (idx_main_v11 (ix4 (0 : Fin 1) i j e)) = ix1 e := funext fun a => by
    match a with
    | ⟨0, _⟩ => rfl
  rw [val_main_v12_apply, val_main_v9_apply, val_main_v11_apply, val_main_v10_apply, hb]
  simp only [hl, hr, prod_eq, Ideal.addf_def]
  rfl

/-- Every weakly fair execution of the reference program ends with its result the specification `G` of the
    arguments' launch contents, the arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v12)
        = Cert.OuterSpec.G (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  (θ_run (Cert.ReferenceIdeal.defs (F := Ideal)) _ _).mono
    (fun _ h c => ⟨(h c).1.trans (ref_term_eq _ _ _ _ _), (h c).2⟩)
    (Cert.ReferenceIdeal.Value.run (F := Ideal) m ρ)

end Cert.RefBridge

end
-- ==== Proof.lean ====
/-
  The certificate of the outer-product projection kernel against its reference.

  Both programs compute, from x : [1, 768, 128], W_in, W_out : [128, 128] and b_in, b_out : [128],
      left[i, e]      = (∑ₖ x[0, i, k] · W_in[e, k]) + b_in[e],
      out[0, i, j, e] = (∑_d (left[i, d] · left[j, d]) · W_out[e, d]) + b_out[e]
  (Proof/Spec.lean). The kernel program forms `left` on the host, hands it to the kernel region TWICE — once tiled by
  the row block i, once by the row block j — and the region writes the result one 128 × 128 × 128 block per grid
  point; the reference forms the same sums with whole-array host operations. At the ideal instance the changes of
  float format are the identity and the matrix unit's product is the plain sum, so the two results are one function
  of the arguments, sum for sum in the same grouping: no algebraic law is needed, and finiteness of the inputs is
  never used.

  The frames: the kernel program's run (Proof/IdealRun.lean, and the same text for the word-level program) deals
  `left`'s full share in two halves to the region's two windows on it and joins them at the region's exit; the
  reference's frame is its run with the result dropped. The idealization rewrote nothing, so `preserves` is trivial.
-/
import proofs.«169702_j46505905881344_1_alg».proof.Defs
import proofs.«169702_j46505905881344_1_alg».proof.Proof.Gen.Kernel
import proofs.«169702_j46505905881344_1_alg».proof.Proof.Gen.KernelIdeal
import proofs.«169702_j46505905881344_1_alg».proof.Proof.Gen.ReferenceIdeal
import proofs.«169702_j46505905881344_1_alg».proof.Proof.Gen.Pre_finite_inputs
import proofs.«169702_j46505905881344_1_alg».proof.Proof.BitsEnd
import proofs.«169702_j46505905881344_1_alg».proof.Proof.IdealAlg
import proofs.«169702_j46505905881344_1_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.RefBridge.run_G m ρ)

/-- Both runs end with the result at the common specification of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.OuterSpec.G (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)), Cert.KernelIdeal.HandValue.run_G m ρ, ?_⟩
  refine (θ_run Cert.ReferenceIdeal.defs _ _).mono (fun _ h c => ⟨(h c).1.trans ?_, (h c).2⟩) (Cert.RefBridge.run_G m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
